-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S256x2048 .f32 .bf16
  ∧ IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x2048 : Shape := ⟨3, ![16, 256, 2048]⟩
abbrev S2048x2048 : Shape := ⟨2, ![2048, 2048]⟩
abbrev S2048 : Shape := ⟨1, ![2048]⟩
abbrev S16x2048x2048 : Shape := ⟨3, ![16, 2048, 2048]⟩
abbrev S16x2048 : Shape := ⟨2, ![16, 2048]⟩
abbrev S_ : Shape := ⟨0, ![]⟩

class Facts : Prop where
  bcast_S_S16x256x2048 : S_.BroadcastsInDim S16x256x2048 (![] : Fin 0 → Fin S16x256x2048.rank)
  reducesTo_S16x256x2048_S_d0_1_2 : S16x256x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S2048 .f32) (main_arg5 : FVec F S16x2048x2048 .f32) (main_arg6 : FVec F S16x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S16x2048x2048 .f32 := Host.absf main_arg5
  let main_cst_8 : FVec F S_ .f32 := constant S_ .f32 0x7F800000#32
  let main_v25 : FVec F S16x2048x2048 .f32 := broadcastInDim S16x2048x2048 ![] bcast_S_S16x2048x2048 main_cst_8
  let main_v26 : IVec S16x2048x2048 1 := cmpf .olt main_v24 main_v25
  let main_c_9 : IVec S_ 1 := constantI S_ 1 1#1
  let main_v27 : IVec S_ 1 := (fun x v => Host.reduce IntOp.andi x v reducesTo_S16x2048x2048_S_d0_1_2 h_S_) main_v26 main_c_9
  let main_v28 : IVec S_ 1 := andi main_v23 main_v27
  let main_v29 : FVec F S16x2048 .f32 := Host.absf main_arg6
  let main_cst_10 : FVec F S_ .f32 := constant S_ .f32 0x7F800000#32
  let main_v30 : FVec F S16x2048 .f32 := broadcastInDim S16x2048 ![] bcast_S_S16x2048 main_cst_10
  let main_v31 : IVec S16x2048 1 := cmpf .olt main_v29 main_v30
  let main_c_11 : IVec S_ 1 := constantI S_ 1 1#1
  let main_v32 : IVec S_ 1 := (fun x v => Host.reduce IntOp.andi x v reducesTo_S16x2048_S_d0_1 h_S_) main_v31 main_c_11
  let main_v33 : IVec S_ 1 := andi main_v28 main_v32
  main_v33

def fn {F : FTy → Type} [FloatOps F] (main_arg0 : FVec F S16x256x2048 .f32) (main_arg1 : FVec F S2048x2048 .f32) (main_arg2 : FVec F S2048x2048 .f32) (main_arg3 : FVec F S2048 .f32) (main_arg4 : FVec F S2048 .f32) (main_arg5 : FVec F S16x2048x2048 .f32) (main_arg6 : FVec F S16x2048 .f32) : IVec S_ 1 :=
  let main_v0 : FVec F S16x256x2048 .f32 := Host.absf main_arg0
  let main_cst : FVec F S_ .f32 := constant S_ .f32 0x7F800000#32
  let main_v1 : FVec F S16x256x2048 .f32 := broadcastInDim S16x256x2048 ![] bcast_S_S16x256x2048 main_cst
  let main_v2 : IVec S16x256x2048 1 := cmpf .olt main_v0 main_v1
  let main_c : IVec S_ 1 := constantI S_ 1 1#1
  let main_v3 : IVec S_ 1 := (fun x v => Host.reduce IntOp.andi x v reducesTo_S16x256x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S16x256x2048 : Shape := ⟨3, ![16, 256, 2048]⟩
abbrev S2048x2048 : Shape := ⟨2, ![2048, 2048]⟩
abbrev S2048 : Shape := ⟨1, ![2048]⟩
abbrev S16x2048x2048 : Shape := ⟨3, ![16, 2048, 2048]⟩
abbrev S16x2048 : Shape := ⟨2, ![16, 2048]⟩
abbrev S16x1x2048 : Shape := ⟨3, ![16, 1, 2048]⟩
abbrev S1x256x2048 : Shape := ⟨3, ![1, 256, 2048]⟩
abbrev S2048x1024 : Shape := ⟨2, ![2048, 1024]⟩
abbrev S1x2048x1024 : Shape := ⟨3, ![1, 2048, 1024]⟩
abbrev S1024 : Shape := ⟨1, ![1024]⟩
abbrev S1x1x1024 : Shape := ⟨3, ![1, 1, 1024]⟩
abbrev S1x256x1024 : Shape := ⟨3, ![1, 256, 1024]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S16x256x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S16x2048x2048, .f32⟩
  | .hbm, ⟨6, _⟩ => ⟨S16x2048, .f32⟩
  | .hbm, ⟨7, _⟩ => ⟨S16x1x2048, .f32⟩
  | .hbm, ⟨8, _⟩ => ⟨S16x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x1024, .f32⟩
  | .local _ .vmem, ⟨3, _⟩ => ⟨S2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1x1x1024, .f32⟩
  | .local _ .vmem, ⟨11, _⟩ => ⟨S1x1x1024, .f32⟩
  | .local _ .vmem, ⟨12, _⟩ => ⟨S1x256x1024, .f32⟩
  | .local _ .vmem, ⟨13, _⟩ => ⟨S1x256x1024, .f32⟩
  | .local _ .vmem, ⟨14, _⟩ => ⟨S2048x1024, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16x2048_S16x1x2048 : S16x2048.ShapeCasts S16x1x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024_S1024_0 : ∀ a, (![0] : Fin 1 → Nat) a + S1024.size a ≤ S1024.size a
  h_S1024 : 0 < S1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x256x2048.size a
  hwx0_0 : ∀ i : grid0.Coords, EltTy.bits .f32 = 32 ∨ (Rect.block (s := S16x256x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x2048.size a
  hwx0_1 : ∀ i : grid0.Coords, EltTy.bits .f32 = 32 ∨ (Rect.block (s := S2048x2048) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x2048.size a
  hwx0_2 : ∀ i : grid0.Coords, EltTy.bits .f32 = 32 ∨ (Rect.block (s := S2048x2048) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S16x2048x2048.size a
  hwx0_3 : ∀ i : grid0.Coords, EltTy.bits .f32 = 32 ∨ (Rect.block (s := S16x2048x2048) S1x2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S2048.size a
  hwx0_4 : ∀ i : grid0.Coords, EltTy.bits .f32 = 32 ∨ (Rect.block (s := S2048) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S2048.size a
  hwx0_5 : ∀ i : grid0.Coords, EltTy.bits .f32 = 32 ∨ (Rect.block (s := S2048) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S16x1x2048.size a
  hwx0_6 : ∀ i : grid0.Coords, EltTy.bits .f32 = 32 ∨ (Rect.block (s := S16x1x2048) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S16x256x2048.size a
  hwx0_7 : ∀ i : grid0.Coords, EltTy.bits .f32 = 32 ∨ (Rect.block (s := S16x256x2048) S1x256x1024.size (cc0_transform_7 i) (hinb0_7 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x256x2048 : Shape := ⟨3, ![16, 256, 2048]⟩
abbrev S2048x2048 : Shape := ⟨2, ![2048, 2048]⟩
abbrev S2048 : Shape := ⟨1, ![2048]⟩
abbrev S16x2048x2048 : Shape := ⟨3, ![16, 2048, 2048]⟩
abbrev S16x2048 : Shape := ⟨2, ![16, 2048]⟩
abbrev S1x2048x2048 : Shape := ⟨3, ![1, 2048, 2048]⟩
abbrev S_ : Shape := ⟨0, ![]⟩
abbrev S1x2048 : Shape := ⟨2, ![1, 2048]⟩
abbrev S16x1x2048 : Shape := ⟨3, ![16, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S16x2048x2048, .f32⟩
  | .hbm, ⟨6, _⟩ => ⟨S16x2048, .f32⟩
  | .hbm, ⟨7, _⟩ => ⟨S1x2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S1x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S1x2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S16x2048, .f32⟩
  | .hbm, ⟨27, _⟩ => ⟨S16x256x2048, .f32⟩
  | .hbm, ⟨28, _⟩ => ⟨S16x1x2048, .f32⟩
  | .hbm, ⟨29, _⟩ => ⟨S16x256x2048, .f32⟩
  | .hbm, ⟨30, _⟩ => ⟨S16x256x2048, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S2048x2048_S1x2048x2048_1_2 : S2048x2048.BroadcastsInDim S1x2048x2048 (![1, 2] : Fin 2 → Fin S1x2048x2048.rank)
  bcast_S_S2048x2048 : S_.BroadcastsInDim S2048x2048 (![] : Fin 0 → Fin S2048x2048.rank)
  bcast_S1x2048x2048_S16x2048x2048_0_1_2 : S1x2048x2048.BroadcastsInDim S16x2048x2048 (![0, 1, 2] : Fin 3 → Fin S16x2048x2048.rank)
  bcast_S2048_S1x2048_1 : S2048.BroadcastsInDim S1x2048 (![1] : Fin 1 → Fin S1x2048.rank)
  bcast_S_S2048 : S_.BroadcastsInDim S2048 (![] : Fin 0 → Fin S2048.rank)
  bcast_S1x2048_S16x2048_0_1 : S1x2048.BroadcastsInDim S16x2048 (![0, 1] : Fin 2 → Fin S16x2048.rank)
  bcast_S16x2048_S16x1x2048_0_2 : S16x2048.BroadcastsInDim S16x1x2048 (![0, 2] : Fin 2 → Fin S16x1x2048.rank)
  bcast_S16x1x2048_S16x256x2048_0_1_2 : S16x1x2048.BroadcastsInDim S16x256x2048 (![0, 1, 2] : Fin 3 → Fin S16x256x2048.rank)
  dot_S16x256x2048_S16x2048x2048_S16x256x2048_2_1_1_2_0_0_wf : DotDims.WF S16x256x2048 S16x2048x2048 S16x256x2048 [2] [1] [1] [2] [0] [0]

variable [Facts₀]

def dot_S16x256x2048_S16x2048x2048_S16x256x2048_2_1_1_2_0_0 : DotDims S16x256x2048 S16x2048x2048 S16x256x2048 where
  lhsContracting := [2]
  rhsContracting := [1]
  lhsNonContracting := [1]
  rhsNonContracting := [2]
  lhsBatch := [0]
  rhsBatch := [0]
  wf := dot_S16x256x2048_S16x2048x2048_S16x256x2048_2_1_1_2_0_0_wf

class Facts : Prop extends Facts₀ where

variable [Facts]
-- ==== Proof.LayerSpec.lean ====
/-
  The layer both programs compute, as ONE function of the seven argument arrays, and the algebra that joins the
  kernel's arrangement of it to the reference's.

  A mean-field dense layer draws, for each Monte-Carlo sample `s`, the weight
  `w[s,k,o] = w_mu[k,o] + exp (½ · w_log_var[k,o]) · eps_w[s,k,o]` and the bias
  `b[s,o] = b_mu[o] + exp (½ · b_log_var[o]) · eps_b[s,o]`, and returns
  `out[s,b,o] = (∑ k, x[s,b,k] · w[s,k,o]) + b[s,o]`.

  The kernel does not take the product `x · w` once: it splits each factor `a` into `a` itself and the residual
  `a - a` (at the extended reals a change of float format is the identity, so the "high part" of a factor is the
  factor and its "low part" is `a - a`), and adds the three products high·high, high·low, low·high. On the extended
  reals `a - a` is `0` exactly when `a` is a real number (`⊤ - ⊤ = ⊥`), so the two extra products vanish — and the
  three-pass sum is the plain one — for REAL factors: this is where the finiteness of the inputs is used.
-/
import Idealize.ShloMosaic.PureOps.Ideal
import Idealize.ShloMosaic.Lib.ValueIdx

noncomputable section

namespace Cert.MeanField

open Idealize.ShloMosaic Idealize.ShloMosaic.ValueIdx

/-! ## Real entries -/

/-- An extended real that is a real number: neither infinity. -/
def IsReal (a : EReal) : Prop := a ≠ ⊤ ∧ a ≠ ⊥

theorem isReal_coe (r : ℝ) : IsReal (r : EReal) := ⟨EReal.coe_ne_top r, EReal.coe_ne_bot r⟩

theorem IsReal.exists_coe {a : EReal} (h : IsReal a) : ∃ r : ℝ, a = (r : EReal) := by
  lift a to ℝ using h
  exact ⟨a, rfl⟩

theorem IsReal.add {a b : EReal} (ha : IsReal a) (hb : IsReal b) : IsReal (a + b) := by
  obtain ⟨r, rfl⟩ := ha.exists_coe
  obtain ⟨t, rfl⟩ := hb.exists_coe
  rw [← EReal.coe_add]; exact isReal_coe _

theorem IsReal.mul {a b : EReal} (ha : IsReal a) (hb : IsReal b) : IsReal (a * b) := by
  obtain ⟨r, rfl⟩ := ha.exists_coe
  obtain ⟨t, rfl⟩ := hb.exists_coe
  rw [← EReal.coe_mul]; exact isReal_coe _

/-- The exponential of a real number is a real number. -/
theorem IsReal.exp {a : EReal} (ha : IsReal a) : IsReal (Ideal.exp a) := by
  obtain ⟨r, rfl⟩ := ha.exists_coe
  rw [Ideal.exp_coe]; exact isReal_coe _

/-- A real number minus itself is zero (on the extended reals this fails at the infinities). -/
theorem IsReal.sub_self {a : EReal} (ha : IsReal a) : a - a = 0 := by
  obtain ⟨r, rfl⟩ := ha.exists_coe
  rw [← EReal.coe_sub, _root_.sub_self, EReal.coe_zero]

/-! ## The constant one half -/

/-- The f32 pattern of `0.5`, the one literal both programs print, read at the extended reals. -/
abbrev half : EReal := Ideal.ofBits .f32 0x3F000000#32

/-- The pattern denotes the real number one half. -/
theorem half_eq : half = ((1 / 2 : ℝ) : EReal) := by
  unfold half
  simp [Ideal.ofBits, Ideal.ieee, -EReal.coe_mul]; norm_num

theorem half_isReal : IsReal half := by
  rw [half_eq]; exact isReal_coe _

/-! ## The layer -/

/-- The weight of sample `s` between input feature `k` and output feature `o`: the mean plus the standard
    deviation `exp (½ · log-variance)` times that sample's draw. -/
def weight (wmu wlv : (⟨2, ![2048, 2048]⟩ : Shape).Idx → EReal) (ew : (⟨3, ![16, 2048, 2048]⟩ : Shape).Idx → EReal)
    (s : Fin 16) (k o : Fin 2048) : EReal :=
  wmu (ix2 k o) + Ideal.exp (half * wlv (ix2 k o)) * ew (ix3 s k o)

/-- The bias of sample `s` at output feature `o`, drawn the same way. -/
def bias (bmu blv : (⟨1, ![2048]⟩ : Shape).Idx → EReal) (eb : (⟨2, ![16, 2048]⟩ : Shape).Idx → EReal)
    (s : Fin 16) (o : Fin 2048) : EReal :=
  bmu (ix1 o) + Ideal.exp (half * blv (ix1 o)) * eb (ix2 s o)

/-- The layer's output at (sample, batch row, output feature): the row of `x` against that sample's weight column,
    plus that sample's bias. -/
def layerOut (x : (⟨3, ![16, 256, 2048]⟩ : Shape).Idx → EReal) (wmu wlv : (⟨2, ![2048, 2048]⟩ : Shape).Idx → EReal)
    (bmu blv : (⟨1, ![2048]⟩ : Shape).Idx → EReal) (ew : (⟨3, ![16, 2048, 2048]⟩ : Shape).Idx → EReal)
    (eb : (⟨2, ![16, 2048]⟩ : Shape).Idx → EReal) : (⟨3, ![16, 256, 2048]⟩ : Shape).Idx → EReal :=
  fun i => (∑ k : Fin 2048, x (ix3 (i 0) (i 1) k) * weight wmu wlv ew (i 0) k (i 2)) + bias bmu blv eb (i 0) (i 2)

/-- A sampled weight is a real number when its mean, log-variance and draw are. -/
theorem weight_isReal {wmu wlv : (⟨2, ![2048, 2048]⟩ : Shape).Idx → EReal} {ew : (⟨3, ![16, 2048, 2048]⟩ : Shape).Idx → EReal}
    (hmu : ∀ i, IsReal (wmu i)) (hlv : ∀ i, IsReal (wlv i)) (hew : ∀ i, IsReal (ew i)) (s : Fin 16) (k o : Fin 2048) :
    IsReal (weight wmu wlv ew s k o) :=
  (hmu _).add (((half_isReal.mul (hlv _)).exp).mul (hew _))

/-! ## The three-pass product of real factors is the plain product -/

/-- With each factor split into itself and its residual `a - a`, the sum of the three products
    (factor · factor) + (factor · residual) + (residual · factor) over a contraction index is the plain sum of
    products, provided every factor is a real number: both residuals are then `0`. -/
theorem three_pass_sum {n : Nat} (a w : Fin n → EReal) (ha : ∀ k, IsReal (a k)) (hw : ∀ k, IsReal (w k)) :
    (∑ k, a k * w k + ∑ k, a k * (w k - w k)) + ∑ k, (a k - a k) * w k = ∑ k, a k * w k := by
  have h1 : ∑ k, a k * (w k - w k) = 0 :=
    Finset.sum_eq_zero fun k _ => by rw [(hw k).sub_self, mul_zero]
  have h2 : ∑ k, (a k - a k) * w k = 0 :=
    Finset.sum_eq_zero fun k _ => by rw [(ha k).sub_self, zero_mul]
  rw [h1, h2, add_zero, add_zero]

end Cert.MeanField

end
-- ==== Proof.RealInputs.lean ====
/-
  The precondition read back: every entry of every argument array is a real number.

  The precondition is the conjunction, over the seven argument arrays, of `jnp.all (|x| < +∞)`. Read at the extended
  reals, `|a|` is `max a (-a)` and the bound's pattern denotes `⊤`; `max a (-a) < ⊤` fails at both infinities
  (`max ⊥ ⊤ = max ⊤ ⊥ = ⊤`) and holds at every real, so each conjunct says that each entry of its array is a real.
-/
import proofs.«413528_j57698590654749_3_alg».proof.Pre_finite_inputs
import proofs.«413528_j57698590654749_3_alg».proof.Proof.LayerSpec
import Idealize.ShloMosaic.Lib.ReduceAll
import Idealize.ShloMosaic.Lib.ValueIdx
import Idealize.ShloMosaic.PureOps.Ideal

noncomputable section

namespace Cert.MeanField

open Idealize.ShloMosaic

/-- The f32 pattern of `+∞`, the bound of every conjunct, denotes the top element. -/
theorem inf_pattern : Ideal.ofBits .f32 0x7F800000#32 = ⊤ := by
  simp [Ideal.ofBits, Ideal.ieee]

/-- An extended real whose absolute value `max a (-a)` is below `⊤` is a real number. -/
theorem isReal_of_abs_lt_top {a : EReal} (h : Ideal.cmp .olt (max a (-a)) ⊤ = 1#1) : IsReal a := by
  induction a using EReal.rec with
  | bot => simp [Ideal.cmp] at h
  | top => simp [Ideal.cmp] at h
  | coe r => exact isReal_coe r

variable [Cert.Pre_finite_inputs.Facts]
open Cert.Pre_finite_inputs Cert.Pre_finite_inputs.Facts

/-- The scalar shape has one index. -/
instance : Subsingleton Cert.Pre_finite_inputs.S_.Idx := ⟨fun _ _ => funext fun d => d.elim0⟩

/-- One conjunct: if the `and`-reduction of `|x| < +∞` over all of `x` is true, every entry of `x` is a real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) (i : s.Idx) : IsReal (x i) := by
  have h := Host.reduce_andi_all _ _ hr hu _ e i
  have h' : Ideal.cmp .olt (max (x i) (-(x i))) (Ideal.ofBits .f32 0x7F800000#32) = 1#1 := h
  rw [inf_pattern] at h'
  exact isReal_of_abs_lt_top h'

/-- A conjunction of `i1` arrays read at an index. -/
theorem andi_at {s : Shape} {w : Nat} (a b : IVec s w) (i : s.Idx) : andi a b i = IntOp.andi (a i) (b i) := rfl

/-- THE PRECONDITION, DECODED: where `finite_inputs` is all ones, every entry of each of the seven arrays is real. -/
theorem real_of_pre (x0 : FVec Ideal S16x256x2048 .f32) (x1 x2 : FVec Ideal S2048x2048 .f32) (x3 x4 : FVec Ideal S2048 .f32)
    (x5 : FVec Ideal S16x2048x2048 .f32) (x6 : FVec Ideal S16x2048 .f32)
    (h : Cert.Pre_finite_inputs.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) := by
  have h0 := congrFun h ValueIdx.ix0
  dsimp only [Cert.Pre_finite_inputs.fn, Cert.Pre_finite_inputs.fn_part1] at h0
  simp only [andi_at, IntOp.andi_eq_one] at h0
  obtain ⟨⟨⟨⟨⟨⟨e0, e1⟩, e2⟩, e3⟩, e4⟩, e5⟩, e6⟩ := h0
  exact ⟨isReal_of_all x0 _ _ _ e0, isReal_of_all x1 _ _ _ e1, isReal_of_all x2 _ _ _ e2, isReal_of_all x3 _ _ _ e3,
    isReal_of_all x4 _ _ _ e4, isReal_of_all x5 _ _ _ e5, isReal_of_all x6 _ _ _ e6⟩

end Cert.MeanField

end
-- ==== Proof.RefIsLayer.lean ====
/-
  The reference computes the layer.

  Read one operation at a time, the reference broadcasts the mean and the standard deviation `exp (½ · log-variance)`
  of the weight over the sample axis, forms `mean + deviation · draw`, contracts the batched product of `x` with it over
  the input features, and adds the bias, formed the same way and broadcast over the batch rows. Index by index that is
  `layerOut`: every broadcast only renames coordinates.
-/
import proofs.«413528_j57698590654749_3_alg».proof.Proof.Gen.ReferenceIdeal.Read
import proofs.«413528_j57698590654749_3_alg».proof.Proof.LayerSpec

noncomputable section

namespace Cert.MeanField

open Idealize.ShloMosaic Idealize.ShloMosaic.ValueIdx Cert.ReferenceIdeal Cert.ReferenceIdeal.Read

/-- The reference's bias stage at (sample, row, feature) is that sample's bias at the feature, whatever the row. -/
theorem ref_bias (x3 x4 : FVec Ideal S2048 .f32) (x6 : FVec Ideal S16x2048 .f32) (i : S16x256x2048.Idx) :
    val_main_v20 (F := Ideal) x3 x4 x6 i = bias x3 x4 x6 (i 0) (i 2) := by
  have e3 : idx_main_v9 (idx_main_v16 (idx_main_v19 (idx_main_v20 i))) = ix1 (i 2) :=
    funext fun a => Fin.ext (by match a with | ⟨0, _⟩ => rfl)
  have e4 : idx_main_v13 (idx_main_v14 (idx_main_v19 (idx_main_v20 i))) = ix1 (i 2) :=
    funext fun a => Fin.ext (by match a with | ⟨0, _⟩ => rfl)
  have e6 : idx_main_v19 (idx_main_v20 i) = ix2 (i 0) (i 2) :=
    funext fun a => Fin.ext (by match a with | ⟨0, _⟩ => rfl | ⟨1, _⟩ => rfl)
  rw [val_main_v20_apply, val_main_v19_apply, val_main_v17_apply, val_main_v16_apply, val_main_v9_apply,
    val_main_v15_apply, val_main_v14_apply, val_main_v13_apply, val_main_v12_apply, val_main_v11_apply,
    val_main_v10_apply, val_main_cst_0_apply, e3, e4, e6]
  rfl

/-- The reference's weight stage at (sample, input feature, output feature) is that sample's weight. -/
theorem ref_weight (x1 x2 : FVec Ideal S2048x2048 .f32) (x5 : FVec Ideal S16x2048x2048 .f32) (s : Fin 16) (k o : Fin 2048) :
    val_main_v8 (F := Ideal) x1 x2 x5 (ix3 s k o) = weight x1 x2 x5 s k o := by
  have e1 : idx_main_v0 (idx_main_v7 (ix3 s k o)) = ix2 k o :=
    funext fun a => Fin.ext (by match a with | ⟨0, _⟩ => rfl | ⟨1, _⟩ => rfl)
  have e2 : idx_main_v4 (idx_main_v5 (ix3 s k o)) = ix2 k o :=
    funext fun a => Fin.ext (by match a with | ⟨0, _⟩ => rfl | ⟨1, _⟩ => rfl)
  rw [val_main_v8_apply, val_main_v7_apply, val_main_v0_apply, val_main_v6_apply, val_main_v5_apply, val_main_v4_apply,
    val_main_v3_apply, val_main_v2_apply, val_main_v1_apply, val_main_cst_apply, e1, e2]
  rfl

/-- THE REFERENCE IS THE LAYER: its result stage is `layerOut` of the seven arrays. -/
theorem ref_is_layer (x0 : FVec Ideal S16x256x2048 .f32) (x1 x2 : FVec Ideal S2048x2048 .f32) (x3 x4 : FVec Ideal S2048 .f32)
    (x5 : FVec Ideal S16x2048x2048 .f32) (x6 : FVec Ideal S16x2048 .f32) :
    val_main_v21 (F := Ideal) x0 x1 x2 x3 x4 x5 x6 = layerOut x0 x1 x2 x3 x4 x5 x6 := by
  refine funext fun (i : S16x256x2048.Idx) => ?_
  rw [val_main_v21_apply, val_main_v18_apply, ref_bias]
  unfold layerOut
  refine congrArg (· + bias x3 x4 x6 (i 0) (i 2)) (Finset.sum_congr rfl fun k _ => ?_)
  have el : lidx_main_v18 i k = ix3 (i 0) (i 1) k :=
    funext fun a => Fin.ext (by match a with | ⟨0, _⟩ => rfl | ⟨1, _⟩ => rfl | ⟨2, _⟩ => rfl)
  have er : ridx_main_v18 i k = ix3 (i 0) k (i 2) :=
    funext fun a => Fin.ext (by match a with | ⟨0, _⟩ => rfl | ⟨1, _⟩ => rfl | ⟨2, _⟩ => rfl)
  rw [el, er]
  exact congrArg (x0 (ix3 (i 0) (i 1) k) * ·) (ref_weight x1 x2 x5 (i 0) k (i 2))

end Cert.MeanField

end
-- ==== Proof.BodyValue.lean ====
/-
  The kernel body's values, index by index.

  At a grid point the body holds a batch tile `x` of one sample (256 rows by 2048 input features), the tile of 1024
  output features of the weight mean, the tile of standard deviations `exp (½ · log-variance)` it keeps between points,
  the sample's tile of weight draws, and the matching 1024 entries of the bias mean, log-variance and draws. It forms
  the sampled weight tile `w = mean + deviation · draw`, multiplies `x · w` in three passes (each factor, then each
  factor's residual against the other factor), and adds the sampled bias to every row.

  For real entries the three passes add up to the plain product (`three_pass_sum`), so the body's result at
  (row `p`, feature `q`) is `(∑ k, x[p,k] · w[k,q]) + bias[q]`.
-/
import proofs.«413528_j57698590654749_3_alg».proof.Proof.Gen.KernelIdeal.Skeleton
import proofs.«413528_j57698590654749_3_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.MeanField

open Idealize.ShloMosaic Idealize.ShloMosaic.ValueIdx Cert.KernelIdeal Cert.KernelIdeal.Gen

/-! ## The tile of standard deviations -/

/-- What the body stores into the tile it keeps: `exp (½ · log-variance)`, entry by entry. -/
theorem deviation_tile_apply (lv : Vec Ideal S2048x1024 .f32) (k : Fin 2048) (q : Fin 1024) :
    k0_pay2 (F := Ideal) lv (ix2 k q) = Ideal.exp (half * lv (ix2 k q)) := by
  unfold k0_pay2
  rw [shapeCast_self]
  rfl

/-! ## The tile product read at an index -/

theorem lhs_tile_0 (j : S256x1024.Idx) (r : dot_S256x2048_S2048x1024_S256x1024_1_0_0_1_n_n.contr.Idx) :
    (dot_S256x2048_S2048x1024_S256x1024_1_0_0_1_n_n.lhsIdx j r 0).val = (j 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
theorem lhs_tile_1 (j : S256x1024.Idx) (r : dot_S256x2048_S2048x1024_S256x1024_1_0_0_1_n_n.contr.Idx) :
    (dot_S256x2048_S2048x1024_S256x1024_1_0_0_1_n_n.lhsIdx j r 1).val = (r ⟨0, by decide⟩).val :=
  dot_S256x2048_S2048x1024_S256x1024_1_0_0_1_n_n.lhsIdx_val_of_single rfl j r
theorem rhs_tile_0 (j : S256x1024.Idx) (r : dot_S256x2048_S2048x1024_S256x1024_1_0_0_1_n_n.contr.Idx) :
    (dot_S256x2048_S2048x1024_S256x1024_1_0_0_1_n_n.rhsIdx j r 0).val = (r ⟨0, by decide⟩).val :=
  dot_S256x2048_S2048x1024_S256x1024_1_0_0_1_n_n.rhsIdx_val_of_single rfl j r
theorem rhs_tile_1 (j : S256x1024.Idx) (r : dot_S256x2048_S2048x1024_S256x1024_1_0_0_1_n_n.contr.Idx) :
    (dot_S256x2048_S2048x1024_S256x1024_1_0_0_1_n_n.rhsIdx j r 1).val = (j 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- A 256×2048 by 2048×1024 product into a zero accumulator, at (row `p`, column `q`): the sum over the 2048
    contracted coordinates of the row's entry times the column's. -/
theorem tile_matmul_apply (a : FVec Ideal S256x2048 .bf16) (w : FVec Ideal S2048x1024 .bf16) (p : Fin 256) (q : Fin 1024) :
    matmul dot_S256x2048_S2048x1024_S256x1024_1_0_0_1_n_n none a w (constant S256x1024 .f32 0x00000000#32) (ix2 p q)
      = ∑ k : Fin 2048, a (ix2 p k) * w (ix2 k q) := by
  simp only [matmul]
  rw [Ideal.matmul_constant_zero_apply,
    ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q)
      ((contrEquiv1 dot_S256x2048_S2048x1024_S256x1024_1_0_0_1_n_n 2048 rfl rfl).symm k) = ix2 p k :=
    funext fun c => Fin.ext (by
      match c with
      | ⟨0, _⟩ => exact lhs_tile_0 _ _
      | ⟨1, _⟩ => exact (lhs_tile_1 _ _).trans hk)
  have er : dot_S256x2048_S2048x1024_S256x1024_1_0_0_1_n_n.rhsIdx (ix2 p q)
      ((contrEquiv1 dot_S256x2048_S2048x1024_S256x1024_1_0_0_1_n_n 2048 rfl rfl).symm k) = ix2 k q :=
    funext fun c => Fin.ext (by
      match c with
      | ⟨0, _⟩ => exact (rhs_tile_0 _ _).trans hk
      | ⟨1, _⟩ => exact rhs_tile_1 _ _)
  rw [el, er]

/-! ## The output tile -/

/-- WHAT THE BODY STORES at (row `p`, feature `q`) of its output tile, for real entries of the batch tile and of the
    sampled weight tile: the row of `x` against the column of the sampled weight, plus the sampled bias at `q`.
    The arguments are the body's loads in the order it reads them: the batch tile, the weight mean, the kept
    deviations, the weight draws, then the bias log-variance, the bias mean and the bias draws. -/
theorem out_tile_apply (x : Vec Ideal S1x256x2048 .f32) (wmu sg : Vec Ideal S2048x1024 .f32) (ew : Vec Ideal S1x2048x1024 .f32)
    (blv bmu : Vec Ideal S1024 .f32) (eb : Vec Ideal S1x1x1024 .f32)
    (hx : ∀ k : Fin 2048, ∀ p : Fin 256, IsReal (x (ix3 (0 : Fin 1) p k)))
    (hw : ∀ k : Fin 2048, ∀ q : Fin 1024, IsReal (wmu (ix2 k q) + sg (ix2 k q) * ew (ix3 (0 : Fin 1) k q)))
    (u : Fin 1) (p : Fin 256) (q : Fin 1024) :
    k0_pay1 (k0_pay3 (F := Ideal) x wmu sg ew blv bmu eb) (ix3 u p q)
      = (∑ k : Fin 2048, x (ix3 (0 : Fin 1) p k) * (wmu (ix2 k q) + sg (ix2 k q) * ew (ix3 (0 : Fin 1) k q)))
        + (bmu (ix1 q) + Ideal.exp (half * blv (ix1 q)) * eb (ix3 (0 : Fin 1) (0 : Fin 1) q)) := by
  unfold k0_pay1
  rw [shapeCast_ab_1ab_apply]
  unfold k0_pay3
  simp only [addf_apply]
  rw [tile_matmul_apply, tile_matmul_apply, tile_matmul_apply]
  simp only [truncf_apply, subf_apply, addf_apply, mulf_apply, shapeCast_1ab_ab_apply]
  rw [three_pass_sum (fun k => x (ix3 (0 : Fin 1) p k)) (fun k => wmu (ix2 k q) + sg (ix2 k q) * ew (ix3 (0 : Fin 1) k q))
    (fun k => hx k p) (fun k => hw k q)]
  rw [broadcastTo_1b_ab_apply, shapeCast_a_1a_apply]
  have eb_at : shapeCast S1024 eb shapeCasts_S1x1x1024_S1024 (ix1 q) = eb (ix3 (0 : Fin 1) (0 : Fin 1) q) :=
    shapeCast_apply eb _ _ _ (by
      rw [Shape.rowMajor_val_three, Shape.rowMajor_val_one]
      show (0 * 1 + 0) * 1024 + q.val = q.val
      omega)
  simp only [addf_apply, mulf_apply]
  rw [eb_at]
  rfl

/-! ## The output tile is a tile of the layer -/

/-- Feature `q` of column tile `j` (of two tiles of 1024) is output feature `j · 1024 + q`. -/
def feature (j : Fin 2) (q : Fin 1024) : Fin 2048 := ⟨j.val * 1024 + q.val, by have := j.isLt; have := q.isLt; omega⟩

/-- When the body's tiles ARE the tiles of the seven arrays for sample `s` and column tile `j` — the batch tile the
    sample's rows of `X`, the mean and draw tiles the columns `j · 1024 + q` of `Wmu` and of the sample's `Ew`, the kept
    tile the deviations `exp (½ · Wlv)` of those columns, the three bias vectors those entries of `Bmu`, `Blv` and the
    sample's `Eb` — and the arrays' entries are real, what the body stores at (row `p`, feature `q`) is the layer's
    output at (sample `s`, row `p`, feature `j · 1024 + q`). -/
theorem tile_is_layer (X : (⟨3, ![16, 256, 2048]⟩ : Shape).Idx → EReal) (Wmu Wlv : (⟨2, ![2048, 2048]⟩ : Shape).Idx → EReal)
    (Bmu Blv : (⟨1, ![2048]⟩ : Shape).Idx → EReal) (Ew : (⟨3, ![16, 2048, 2048]⟩ : Shape).Idx → EReal)
    (Eb : (⟨2, ![16, 2048]⟩ : Shape).Idx → EReal) (s : Fin 16) (j : Fin 2)
    (x : Vec Ideal S1x256x2048 .f32) (wmu sg : Vec Ideal S2048x1024 .f32) (ew : Vec Ideal S1x2048x1024 .f32)
    (blv bmu : Vec Ideal S1024 .f32) (eb : Vec Ideal S1x1x1024 .f32)
    (hx : ∀ (p : Fin 256) (k : Fin 2048), x (ix3 (0 : Fin 1) p k) = X (ix3 s p k))
    (hwmu : ∀ (k : Fin 2048) (q : Fin 1024), wmu (ix2 k q) = Wmu (ix2 k (feature j q)))
    (hsg : ∀ (k : Fin 2048) (q : Fin 1024), sg (ix2 k q) = Ideal.exp (half * Wlv (ix2 k (feature j q))))
    (hew : ∀ (k : Fin 2048) (q : Fin 1024), ew (ix3 (0 : Fin 1) k q) = Ew (ix3 s k (feature j q)))
    (hblv : ∀ q : Fin 1024, blv (ix1 q) = Blv (ix1 (feature j q)))
    (hbmu : ∀ q : Fin 1024, bmu (ix1 q) = Bmu (ix1 (feature j q)))
    (heb : ∀ q : Fin 1024, eb (ix3 (0 : Fin 1) (0 : Fin 1) q) = Eb (ix2 s (feature j q)))
    (rX : ∀ i, IsReal (X i)) (rWmu : ∀ i, IsReal (Wmu i)) (rWlv : ∀ i, IsReal (Wlv i)) (rEw : ∀ i, IsReal (Ew i))
    (u : Fin 1) (p : Fin 256) (q : Fin 1024) :
    k0_pay1 (k0_pay3 (F := Ideal) x wmu sg ew blv bmu eb) (ix3 u p q)
      = layerOut X Wmu Wlv Bmu Blv Ew Eb (ix3 s p (feature j q)) := by
  rw [out_tile_apply x wmu sg ew blv bmu eb (fun k p => by rw [hx]; exact rX _)
    (fun k q => by rw [hwmu, hsg, hew]; exact weight_isReal rWmu rWlv rEw s k (feature j q)) u p q]
  unfold layerOut weight bias
  simp only [hx, hwmu, hsg, hew, hblv, hbmu, heb]

end Cert.MeanField

end
-- ==== Proof.BodyPieces.lean ====
/-
  What one run of the body leaves behind, as values of its loads.

  The body is run in two ways. At the first sample of a column tile it recomputes the tile of standard deviations from
  the log-variance tile and keeps it; at the other samples it finds the tile kept by the point before. Either way it
  stores ONE whole output tile. Read back, each stored tile is the body's arithmetic applied to what it loaded:
  the kept tile is `exp (½ · log-variance)` of the loaded log-variances, and the output tile is the three-pass product
  plus bias of the loaded tiles, with the deviations it just stored (first sample) or found (other samples).
  Stated for any float instance: nothing here depends on what the operations mean.
-/
import proofs.«413528_j57698590654749_3_alg».proof.Proof.Gen.KernelIdeal.Frame
import Idealize.ShloMosaic.Lib.Pipeline.Value
import Idealize.ShloMosaic.Lib.Tactic

noncomputable section

namespace Cert.MeanField.Kernel

open Idealize.ShloMosaic Idealize.ShloMosaic.TcCoe Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a later sample: the output tile is the body's arithmetic of the loaded tiles and the deviations `xs0` found
    in the kept tile. -/
theorem out_B (c : Dev nD) (i : grid0.Coords) (arg2 : Memref sig .tc .vmem S1x256x2048 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S1x2048x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1x1x1024 .f32) (harg8 : arg8.IsWhole) (arg9 : Memref sig .tc .vmem S1x256x1024 .f32) (harg9 : arg9.IsWhole) (arg10 : Memref sig .tc .vmem S2048x1024 .f32) (harg10 : arg10.IsWhole) (hc0 : ¬cond0_0 i)
    (x0 : Vec F S1x256x2048 .f32) (x1 : Vec F S2048x1024 .f32) (x2 : Vec F S2048x1024 .f32) (x3 : Vec F S1x2048x1024 .f32) (x4 : Vec F S1024 .f32) (x5 : Vec F S1024 .f32) (x6 : Vec F S1x1x1024 .f32) (xs0 : Vec F S2048x1024 .f32) :
    out0_B_7 c i arg2 harg2 arg3 harg3 arg4 harg4 arg5 harg5 arg6 harg6 arg7 harg7 arg8 harg8 arg9 harg9 arg10 harg10 hc0 x0 x1 x2 x3 x4 x5 x6 xs0 = k0_pay1 (k0_pay3 x0 x1 xs0 x3 x5 x4 x6) := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero hz3]
  simp only [View.readAt_eq_ld, harg2.read_unread, harg3.read_unread, harg5.read_unread, harg6.read_unread, harg7.read_unread,
    harg8.read_unread, harg10.read_unread, View.ld_unit_zero (S := S1x256x2048) hz3, View.ld_unit_zero (S := S2048x1024) hz2, View.ld_unit_zero (S := S1x2048x1024) hz3, View.ld_unit_zero (S := S1024) hz1, View.ld_unit_zero (S := S1x1x1024) hz3]

/-- At the first sample: the tile the body keeps is its deviation arithmetic of the loaded log-variance tile. -/
theorem sout_A (c : Dev nD) (i : grid0.Coords) (arg2 : Memref sig .tc .vmem S1x256x2048 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S1x2048x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1x1x1024 .f32) (harg8 : arg8.IsWhole) (arg9 : Memref sig .tc .vmem S1x256x1024 .f32) (harg9 : arg9.IsWhole) (arg10 : Memref sig .tc .vmem S2048x1024 .f32) (harg10 : arg10.IsWhole) (hc0 : cond0_0 i)
    (x0 : Vec F S1x256x2048 .f32) (x1 : Vec F S2048x1024 .f32) (x2 : Vec F S2048x1024 .f32) (x3 : Vec F S1x2048x1024 .f32) (x4 : Vec F S1024 .f32) (x5 : Vec F S1024 .f32) (x6 : Vec F S1x1x1024 .f32) :
    sout0_A_0 c i arg2 harg2 arg3 harg3 arg4 harg4 arg5 harg5 arg6 harg6 arg7 harg7 arg8 harg8 arg9 harg9 arg10 harg10 hc0 x0 x1 x2 x3 x4 x5 x6 = k0_pay2 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg4.read_unread, View.ld_unit_zero (S := S2048x1024) hz2]

/-- At the first sample: the output tile is the body's arithmetic of the loaded tiles and the deviations it has just
    stored (its later load of the kept tile reads them back). -/
theorem out_A (c : Dev nD) (i : grid0.Coords) (arg2 : Memref sig .tc .vmem S1x256x2048 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S1x2048x1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1x1x1024 .f32) (harg8 : arg8.IsWhole) (arg9 : Memref sig .tc .vmem S1x256x1024 .f32) (harg9 : arg9.IsWhole) (arg10 : Memref sig .tc .vmem S2048x1024 .f32) (harg10 : arg10.IsWhole) (hc0 : cond0_0 i)
    (x0 : Vec F S1x256x2048 .f32) (x1 : Vec F S2048x1024 .f32) (x2 : Vec F S2048x1024 .f32) (x3 : Vec F S1x2048x1024 .f32) (x4 : Vec F S1024 .f32) (x5 : Vec F S1024 .f32) (x6 : Vec F S1x1x1024 .f32) :
    out0_A_7 c i arg2 harg2 arg3 harg3 arg4 harg4 arg5 harg5 arg6 harg6 arg7 harg7 arg8 harg8 arg9 harg9 arg10 harg10 hc0 x0 x1 x2 x3 x4 x5 x6 = k0_pay1 (k0_pay3 x0 x1 (k0_pay2 x2) x3 x5 x4 x6) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread,
    harg7.read_unread, harg8.read_unread, View.readCov_unit_zero (S := S2048x1024) _ hz2, View.ld_unit_zero (S := S1x256x2048) hz3, View.ld_unit_zero (S := S2048x1024) hz2, View.ld_unit_zero (S := S1x2048x1024) hz3, View.ld_unit_zero (S := S1024) hz1, View.ld_unit_zero (S := S1x1x1024) hz3]

end Cert.MeanField.Kernel

end
-- ==== Proof.KernelValue.lean ====
/-
  The kernel's result array is the layer of its arguments.

  The grid has 32 points: point `t` is sample `t mod 16` of column tile `t / 16`. At point `t` the windows hold
  the sample's 256 × 2048 rows of `x`, the 2048 × 1024 tiles of the weight mean and log-variance at columns
  `(t / 16) · 1024 + q`, the sample's tile of weight draws at those columns, the matching 1024 entries of the bias mean
  and log-variance, and the sample's 1024 bias draws (read through a reshape of `eps_b` that gives it a unit middle axis).

  * The tile the body keeps holds, after EVERY point, the standard deviations `exp (½ · log-variance)` of that point's
    column tile: it is recomputed at the tile's first sample and left alone at the other fifteen, and the log-variance
    window does not move inside a column tile (`kept_eq`, by induction on the point).
  * So what any point writes back is the body's arithmetic of its tiles with those deviations, which for real entries
    is the block (sample, all rows, the tile's 1024 features) of the layer (`flushed_eq`).
  * Those 32 blocks tile the 16 × 256 × 2048 result: entry (s, b, o) lies in the block of point `(o / 1024) · 16 + s`
    (`cover7`). Hence the result array is the layer (`final`), and the run ends there (`run`).
-/
import proofs.«413528_j57698590654749_3_alg».proof.Proof.Gen.KernelIdeal.Value
import proofs.«413528_j57698590654749_3_alg».proof.Proof.BodyValue
import proofs.«413528_j57698590654749_3_alg».proof.Proof.BodyPieces
import Idealize.ShloMosaic.Lib.Pipeline.Value
import Idealize.ShloMosaic.Lib.StableHlo.Run
import Idealize.ShloMosaic.Lib.ValueLayout

noncomputable section

namespace Cert.MeanField.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The arrays the region finds, and each window's tile at a grid point -/

abbrev xArr (c : Dev nD) : Vec Ideal S16x256x2048 .f32 := V m c main_arg0
abbrev wmuArr (c : Dev nD) : Vec Ideal S2048x2048 .f32 := V m c main_arg1
abbrev wlvArr (c : Dev nD) : Vec Ideal S2048x2048 .f32 := V m c main_arg2
abbrev bmuArr (c : Dev nD) : Vec Ideal S2048 .f32 := V m c main_arg3
abbrev blvArr (c : Dev nD) : Vec Ideal S2048 .f32 := V m c main_arg4
abbrev ewArr (c : Dev nD) : Vec Ideal S16x2048x2048 .f32 := V m c main_arg5
abbrev ebArr (c : Dev nD) : Vec Ideal S16x2048 .f32 := V m c main_arg6
abbrev eb3Arr (c : Dev nD) : Vec Ideal S16x1x2048 .f32 := V m c main_v0

abbrev xBlk (c : Dev nD) (t : Fin cfg0.N) : Vec Ideal S1x256x2048 .f32 := iblk m c 0 t
abbrev wmuBlk (c : Dev nD) (t : Fin cfg0.N) : Vec Ideal S2048x1024 .f32 := iblk m c 1 t
abbrev wlvBlk (c : Dev nD) (t : Fin cfg0.N) : Vec Ideal S2048x1024 .f32 := iblk m c 2 t
abbrev ewBlk (c : Dev nD) (t : Fin cfg0.N) : Vec Ideal S1x2048x1024 .f32 := iblk m c 3 t
abbrev bmuBlk (c : Dev nD) (t : Fin cfg0.N) : Vec Ideal S1024 .f32 := iblk m c 4 t
abbrev blvBlk (c : Dev nD) (t : Fin cfg0.N) : Vec Ideal S1024 .f32 := iblk m c 5 t
abbrev ebBlk (c : Dev nD) (t : Fin cfg0.N) : Vec Ideal S1x1x1024 .f32 := iblk m c 6 t

/-- The grid runs the two column tiles in turn, and within each the sixteen samples: point `t` is sample `t mod 16` -/
def smp (t : Fin cfg0.N) : Fin 16 := ⟨t.val % 16, Nat.mod_lt _ (by decide)⟩
/-- of column tile `t / 16`. -/
def col (t : Fin cfg0.N) : Fin 2 := ⟨t.val / 16, by have := t.isLt; have : cfg0.N = 32 := N_0; omega⟩

/-- The printed index maps, decided once over the 32 grid points: which block of its array each window holds. -/
theorem idx_facts : ∀ t : Fin cfg0.N,
    (win0_0.index t (0 : Fin 3) = t.val % 16 ∧ win0_0.index t (1 : Fin 3) = 0 ∧ win0_0.index t (2 : Fin 3) = 0)
    ∧ (win0_1.index t (0 : Fin 2) = 0 ∧ win0_1.index t (1 : Fin 2) = t.val / 16)
    ∧ (win0_2.index t (0 : Fin 2) = 0 ∧ win0_2.index t (1 : Fin 2) = t.val / 16)
    ∧ (win0_3.index t (0 : Fin 3) = t.val % 16 ∧ win0_3.index t (1 : Fin 3) = 0 ∧ win0_3.index t (2 : Fin 3) = t.val / 16)
    ∧ (win0_4.index t (0 : Fin 1) = t.val / 16)
    ∧ (win0_5.index t (0 : Fin 1) = t.val / 16)
    ∧ (win0_6.index t (0 : Fin 3) = t.val % 16 ∧ win0_6.index t (1 : Fin 3) = 0 ∧ win0_6.index t (2 : Fin 3) = t.val / 16)
    ∧ (win0_7.index t (0 : Fin 3) = t.val % 16 ∧ win0_7.index t (1 : Fin 3) = 0 ∧ win0_7.index t (2 : Fin 3) = t.val / 16) :=
  (by decide +kernel : ∀ t : Fin grid0.N, _)

theorem xBlk_apply (c : Dev nD) (t : Fin cfg0.N) (p : Fin 256) (k : Fin 2048) :
    xBlk m c t (ix3 (0 : Fin 1) p k) = xArr m c (ix3 (smp t) p k) := by
  obtain ⟨⟨e0, e1, e2⟩, -⟩ := idx_facts t
  show V m c main_arg0 (((cfg0.win 0).blk t).view.emb (ix3 (0 : Fin 1) p k)) = V m c main_arg0 (ix3 (smp t) p k)
  refine congrArg (V m c main_arg0) (funext fun a => Fin.ext ?_)
  match a with
  | ⟨0, _⟩ => show win0_0.index t (0 : Fin 3) * 1 + 1 * 0 = t.val % 16; omega
  | ⟨1, _⟩ => show win0_0.index t (1 : Fin 3) * 256 + 1 * p.val = p.val; omega
  | ⟨2, _⟩ => show win0_0.index t (2 : Fin 3) * 2048 + 1 * k.val = k.val; omega

theorem eb3Arr_eq (c : Dev nD) :
    eb3Arr m c = shapeCast S16x1x2048 (m ((c : Thread nD τ).loc main_arg6)) shapeCasts_S16x2048_S16x1x2048 := by
  dsimp only [eb3Arr, V, hostOps0]; after_results; rfl

theorem wmuBlk_apply (c : Dev nD) (t : Fin cfg0.N) (k : Fin 2048) (q : Fin 1024) :
    wmuBlk m c t (ix2 k q) = wmuArr m c (ix2 k (feature (col t) q)) := by
  obtain ⟨-, ⟨e0, e1⟩, -⟩ := idx_facts t
  show V m c main_arg1 (((cfg0.win 1).blk t).view.emb (ix2 k q)) = V m c main_arg1 (ix2 k (feature (col t) q))
  refine congrArg (V m c main_arg1) (funext fun a => Fin.ext ?_)
  match a with
  | ⟨0, _⟩ => show win0_1.index t (0 : Fin 2) * 2048 + 1 * k.val = k.val; omega
  | ⟨1, _⟩ => show win0_1.index t (1 : Fin 2) * 1024 + 1 * q.val = t.val / 16 * 1024 + q.val; omega

theorem wlvBlk_apply (c : Dev nD) (t : Fin cfg0.N) (k : Fin 2048) (q : Fin 1024) :
    wlvBlk m c t (ix2 k q) = wlvArr m c (ix2 k (feature (col t) q)) := by
  obtain ⟨-, -, ⟨e0, e1⟩, -⟩ := idx_facts t
  show V m c main_arg2 (((cfg0.win 2).blk t).view.emb (ix2 k q)) = V m c main_arg2 (ix2 k (feature (col t) q))
  refine congrArg (V m c main_arg2) (funext fun a => Fin.ext ?_)
  match a with
  | ⟨0, _⟩ => show win0_2.index t (0 : Fin 2) * 2048 + 1 * k.val = k.val; omega
  | ⟨1, _⟩ => show win0_2.index t (1 : Fin 2) * 1024 + 1 * q.val = t.val / 16 * 1024 + q.val; omega

theorem ewBlk_apply (c : Dev nD) (t : Fin cfg0.N) (k : Fin 2048) (q : Fin 1024) :
    ewBlk m c t (ix3 (0 : Fin 1) k q) = ewArr m c (ix3 (smp t) k (feature (col t) q)) := by
  obtain ⟨-, -, -, ⟨e0, e1, e2⟩, -⟩ := idx_facts t
  show V m c main_arg5 (((cfg0.win 3).blk t).view.emb (ix3 (0 : Fin 1) k q)) = V m c main_arg5 (ix3 (smp t) k (feature (col t) q))
  refine congrArg (V m c main_arg5) (funext fun a => Fin.ext ?_)
  match a with
  | ⟨0, _⟩ => show win0_3.index t (0 : Fin 3) * 1 + 1 * 0 = t.val % 16; omega
  | ⟨1, _⟩ => show win0_3.index t (1 : Fin 3) * 2048 + 1 * k.val = k.val; omega
  | ⟨2, _⟩ => show win0_3.index t (2 : Fin 3) * 1024 + 1 * q.val = t.val / 16 * 1024 + q.val; omega

theorem bmuBlk_apply (c : Dev nD) (t : Fin cfg0.N) (q : Fin 1024) :
    bmuBlk m c t (ix1 q) = bmuArr m c (ix1 (feature (col t) q)) := by
  obtain ⟨-, -, -, -, e0, -⟩ := idx_facts t
  show V m c main_arg3 (((cfg0.win 4).blk t).view.emb (ix1 q)) = V m c main_arg3 (ix1 (feature (col t) q))
  refine congrArg (V m c main_arg3) (funext fun a => Fin.ext ?_)
  match a with
  | ⟨0, _⟩ => show win0_4.index t (0 : Fin 1) * 1024 + 1 * q.val = t.val / 16 * 1024 + q.val; omega

theorem blvBlk_apply (c : Dev nD) (t : Fin cfg0.N) (q : Fin 1024) :
    blvBlk m c t (ix1 q) = blvArr m c (ix1 (feature (col t) q)) := by
  obtain ⟨-, -, -, -, -, e0, -⟩ := idx_facts t
  show V m c main_arg4 (((cfg0.win 5).blk t).view.emb (ix1 q)) = V m c main_arg4 (ix1 (feature (col t) q))
  refine congrArg (V m c main_arg4) (funext fun a => Fin.ext ?_)
  match a with
  | ⟨0, _⟩ => show win0_5.index t (0 : Fin 1) * 1024 + 1 * q.val = t.val / 16 * 1024 + q.val; omega

theorem ebBlk_apply (c : Dev nD) (t : Fin cfg0.N) (q : Fin 1024) :
    ebBlk m c t (ix3 (0 : Fin 1) (0 : Fin 1) q) = ebArr m c (ix2 (smp t) (feature (col t) q)) := by
  obtain ⟨-, -, -, -, -, -, ⟨e0, e1, e2⟩, -⟩ := idx_facts t
  have h1 : ebBlk m c t (ix3 (0 : Fin 1) (0 : Fin 1) q) = eb3Arr m c (ix3 (smp t) (0 : Fin 1) (feature (col t) q)) := by
    show V m c main_v0 (((cfg0.win 6).blk t).view.emb (ix3 (0 : Fin 1) (0 : Fin 1) q))
      = V m c main_v0 (ix3 (smp t) (0 : Fin 1) (feature (col t) q))
    refine congrArg (V m c main_v0) (funext fun a => Fin.ext ?_)
    match a with
    | ⟨0, _⟩ => show win0_6.index t (0 : Fin 3) * 1 + 1 * 0 = t.val % 16; omega
    | ⟨1, _⟩ => show win0_6.index t (1 : Fin 3) * 1 + 1 * 0 = 0; omega
    | ⟨2, _⟩ => show win0_6.index t (2 : Fin 3) * 1024 + 1 * q.val = t.val / 16 * 1024 + q.val; omega
  rw [h1, eb3Arr_eq, shapeCast_apply _ _ _ (ix2 (smp t) (feature (col t) q)) (by
    rw [Shape.rowMajor_val_two, Shape.rowMajor_val_three]
    show (smp t).val * 2048 + (feature (col t) q).val = ((smp t).val * 1 + 0) * 2048 + (feature (col t) q).val
    omega)]
  exact (congrFun (V_main_arg6 m c) _).symm

/-! ## The kept tile holds the deviations of the point's column tile -/

/-- The standard deviations of column tile `j`: `exp (½ · log-variance)` of its 1024 columns. -/
def devTile (c : Dev nD) (j : Fin 2) : Vec Ideal S2048x1024 .f32 :=
  fun y => Ideal.exp (half * wlvArr m c (ix2 (y 0) (feature j (y 1))))

theorem devTile_apply (c : Dev nD) (j : Fin 2) (k : Fin 2048) (q : Fin 1024) :
    devTile m c j (ix2 k q) = Ideal.exp (half * wlvArr m c (ix2 k (feature j q))) := rfl

/-- Recomputed at a point, the tile is the deviations of that point's column tile. -/
theorem fresh_dev (c : Dev nD) (t : Fin cfg0.N) : k0_pay2 (F := Ideal) (wlvBlk m c t) = devTile m c (col t) := by
  funext y
  obtain ⟨k, q, rfl⟩ : ∃ (k : Fin 2048) (q : Fin 1024), y = ix2 k q := ⟨y 0, y 1, eq_ix2 y⟩
  refine (deviation_tile_apply (wlvBlk m c t) k q).trans ?_
  rw [wlvBlk_apply]; rfl

/-- At the first sample of a column tile the body recomputes the kept tile. -/
theorem kept_first (c : Dev nD) (t : Fin cfg0.N) (h0 : t.val % 16 = 0) :
    (outsAt0 m c t.val t.isLt).2 = devTile m c (col t) := by
  rw [outsAt0_A m c t h0]; dsimp only
  exact (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)).trans (fresh_dev m c t)

/-- At a later sample the body leaves the kept tile as the point before left it. -/
theorem kept_later (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]; dsimp only; rfl

/-- THE KEPT TILE after any point: the deviations of that point's column tile — recomputed at the tile's first
    sample, carried unchanged through its other fifteen. By induction on the point. -/
theorem kept_eq (c : Dev nD) : ∀ (n : ℕ) (h : n < cfg0.N), (outsAt0 m c n h).2 = devTile m c (col ⟨n, h⟩)
  | 0, h => kept_first m c ⟨0, h⟩ rfl
  | n + 1, h => by
    by_cases h0 : (n + 1) % 16 = 0
    · exact kept_first m c ⟨n + 1, h⟩ h0
    · rw [kept_later m c ⟨n + 1, h⟩ h0]
      show (outsAt0 m c n _).2 = _
      rw [kept_eq c n (Nat.lt_of_succ_lt h)]
      congr 1
      apply Fin.ext
      show n / 16 = (n + 1) / 16
      omega

/-! ## What a point writes back -/

/-- THE OUTPUT TILE after any point: the body's arithmetic of the point's tiles and the deviations of its column tile. -/
theorem out_at (c : Dev nD) (t : Fin cfg0.N) :
    (outsAt0 m c t.val t.isLt).1 = k0_pay1 (k0_pay3 (F := Ideal) (xBlk m c t) (wmuBlk m c t) (devTile m c (col t)) (ewBlk m c t)
      (blvBlk m c t) (bmuBlk m c t) (ebBlk m c t)) := by
  by_cases h0 : t.val % 16 = 0
  · rw [outsAt0_A m c t h0]; dsimp only
    refine (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)).trans ?_
    exact congrArg (fun sg => k0_pay1 (k0_pay3 (F := Ideal) (xBlk m c t) (wmuBlk m c t) sg (ewBlk m c t) (blvBlk m c t) (bmuBlk m c t) (ebBlk m c t)))
      (fresh_dev m c t)
  · have hpos : 0 < t.val := Nat.pos_of_ne_zero fun hz => h0 (by rw [hz])
    have hk : (outsAt0 m c (t.val - 1) (Nat.lt_of_le_of_lt (Nat.sub_le _ _) t.isLt)).2 = devTile m c (col t) := by
      rw [kept_eq m c (t.val - 1) _]
      congr 1
      apply Fin.ext
      show (t.val - 1) / 16 = t.val / 16
      omega
    rw [outsAt0_B m c t h0]; dsimp only
    refine (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2).trans ?_
    exact congrArg (fun sg => k0_pay1 (k0_pay3 (F := Ideal) (xBlk m c t) (wmuBlk m c t) sg (ewBlk m c t) (blvBlk m c t) (bmuBlk m c t) (ebBlk m c t))) hk

/-- The layer of the arrays as the region finds them. -/
def kernelOut (c : Dev nD) : Vec Ideal S16x256x2048 .f32 :=
  layerOut (xArr m c) (wmuArr m c) (wlvArr m c) (bmuArr m c) (blvArr m c) (ewArr m c) (ebArr m c)

/-- WHAT POINT `t` WRITES BACK is block `t` of the layer: rows of sample `t mod 16`, features of column tile `t / 16`. -/
theorem flushed_eq (c : Dev nD) (t : Fin cfg0.N) (rX : ∀ i, IsReal (xArr m c i)) (rWmu : ∀ i, IsReal (wmuArr m c i))
    (rWlv : ∀ i, IsReal (wlvArr m c i)) (rEw : ∀ i, IsReal (ewArr m c i)) :
    (dats m 0 c).flushed 7 t = ((cfg0.win 7).blk t).view.read (Elt Ideal) (kernelOut m c) := by
  rw [Cert.KernelIdeal.Value.flushed7, out_at]
  obtain ⟨-, -, -, -, -, -, -, ⟨e0, e1, e2⟩⟩ := idx_facts t
  refine funext fun (y : S1x256x1024.Idx) => ?_
  obtain ⟨u, p, q, rfl⟩ : ∃ (u : Fin 1) (p : Fin 256) (q : Fin 1024), y = ix3 u p q := ⟨y 0, y 1, y 2, eq_ix3 y⟩
  have hemb : ((cfg0.win 7).blk t).view.emb (ix3 u p q) = ix3 (smp t) p (feature (col t) q) :=
    funext fun a => Fin.ext (by
      have hu : u.val = 0 := by omega
      match a with
      | ⟨0, _⟩ => show win0_7.index t (0 : Fin 3) * 1 + 1 * u.val = t.val % 16; omega
      | ⟨1, _⟩ => show win0_7.index t (1 : Fin 3) * 256 + 1 * p.val = p.val; omega
      | ⟨2, _⟩ => show win0_7.index t (2 : Fin 3) * 1024 + 1 * q.val = t.val / 16 * 1024 + q.val; omega)
  show k0_pay1 (k0_pay3 (F := Ideal) (xBlk m c t) (wmuBlk m c t) (devTile m c (col t)) (ewBlk m c t) (blvBlk m c t) (bmuBlk m c t) (ebBlk m c t)) (ix3 u p q)
    = kernelOut m c (((cfg0.win 7).blk t).view.emb (ix3 u p q))
  rw [hemb]
  exact tile_is_layer (xArr m c) (wmuArr m c) (wlvArr m c) (bmuArr m c) (blvArr m c) (ewArr m c) (ebArr m c) (smp t) (col t)
    (xBlk m c t) (wmuBlk m c t) (devTile m c (col t)) (ewBlk m c t) (blvBlk m c t) (bmuBlk m c t) (ebBlk m c t)
    (xBlk_apply m c t) (wmuBlk_apply m c t) (devTile_apply m c (col t)) (ewBlk_apply m c t) (blvBlk_apply m c t)
    (bmuBlk_apply m c t) (ebBlk_apply m c t) rX rWmu rWlv rEw u p q

/-! ## The blocks tile the result array -/

theorem mem_blk7 (t : Fin cfg0.N) (i : S16x256x2048.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v1).slice (win0_7.rect t)).set ↔ _
  rw [View.set_slice_whole, Rect.mem_set_unit]
  exact Iff.rfl

/-- Entry (sample `s`, row, feature `o`) is written by the point of column tile `o / 1024` and sample `s`. -/
theorem cover7 (i : S16x256x2048.Idx) :
    ∃ t : Fin cfg0.N, (cfg0.win 7).flush t = true ∧ i ∈ ((cfg0.win 7).blk t).view.set := by
  have h0 : (i 0).val < 16 := (i 0).isLt
  have h1 : (i 1).val < 256 := (i 1).isLt
  have h2 : (i 2).val < 2048 := (i 2).isLt
  have hN : cfg0.N = 32 := N_0
  refine ⟨⟨(i 2).val / 1024 * 16 + (i 0).val, by omega⟩, flush0_7 _, ?_⟩
  rw [mem_blk7]
  obtain ⟨-, -, -, -, -, -, -, ⟨e0, e1, e2⟩⟩ := idx_facts ⟨(i 2).val / 1024 * 16 + (i 0).val, by omega⟩
  dsimp only at e0 e1 e2
  intro a
  match a with
  | ⟨0, _⟩ =>
    show win0_7.index _ (0 : Fin 3) * 1 ≤ (i 0).val ∧ (i 0).val < win0_7.index _ (0 : Fin 3) * 1 + 1
    omega
  | ⟨1, _⟩ =>
    show win0_7.index _ (1 : Fin 3) * 256 ≤ (i 1).val ∧ (i 1).val < win0_7.index _ (1 : Fin 3) * 256 + 256
    omega
  | ⟨2, _⟩ =>
    show win0_7.index _ (2 : Fin 3) * 1024 ≤ (i 2).val ∧ (i 2).val < win0_7.index _ (2 : Fin 3) * 1024 + 1024
    omega

/-- THE RESULT ARRAY after the run is the layer of the arrays the region found. -/
theorem final (c : Dev nD) (rX : ∀ i, IsReal (xArr m c i)) (rWmu : ∀ i, IsReal (wmuArr m c i))
    (rWlv : ∀ i, IsReal (wlvArr m c i)) (rEw : ∀ i, IsReal (ewArr m c i)) :
    (dats m 0 c).arrAt 7 cfg0.N = kernelOut m c :=
  (dats m 0 c).arrAt_eq_of_cover 7 (kernelOut m c) (fun t _ => flushed_eq m c t rX rWmu rWlv rEw) cover7

/-- … and those arrays are the arguments as launched (the one host operation before the region writes none of them). -/
theorem kernelOut_eq (c : Dev nD) : kernelOut m c
    = layerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  unfold kernelOut xArr wmuArr wlvArr bmuArr blvArr ewArr ebArr
  rw [V_main_arg0, V_main_arg1, V_main_arg2, V_main_arg3, V_main_arg4, V_main_arg5, V_main_arg6]

/-- THE KERNEL'S RUN, READ: from a memory whose argument arrays hold real numbers, every execution ends with the result
    array at the layer of the arguments, the arguments unchanged. -/
theorem run (hreal : ∀ c : Dev nD, (∀ i, IsReal (m ((c : Thread nD τ).loc main_arg0) i)) ∧ (∀ i, IsReal (m ((c : Thread nD τ).loc main_arg1) i))
      ∧ (∀ i, IsReal (m ((c : Thread nD τ).loc main_arg2) i)) ∧ (∀ i, IsReal (m ((c : Thread nD τ).loc main_arg5) i))) :
    θ_run defs (onTc (τ := τ) (main (F := Ideal))) ⟨m, fun _ => 0, ρ⟩ fun r => ∀ c : Dev nD,
      r.2.mem ((c : Thread nD τ).loc main_v1)
          = layerOut (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c
      (fun i => by
        have e : xArr m c i = m ((c : Thread nD τ).loc main_arg0) i := congrFun (V_main_arg0 m c) i
        rw [e]; exact (hreal c).1 i)
      (fun i => by
        have e : wmuArr m c i = m ((c : Thread nD τ).loc main_arg1) i := congrFun (V_main_arg1 m c) i
        rw [e]; exact (hreal c).2.1 i)
      (fun i => by
        have e : wlvArr m c i = m ((c : Thread nD τ).loc main_arg2) i := congrFun (V_main_arg2 m c) i
        rw [e]; exact (hreal c).2.2.1 i)
      (fun i => by
        have e : ewArr m c i = m ((c : Thread nD τ).loc main_arg5) i := congrFun (V_main_arg5 m c) i
        rw [e]; exact (hreal c).2.2.2 i)).trans (kernelOut_eq m c)), (h c).2⟩)
    (Cert.KernelIdeal.Value.run_blocks m ρ)

end Cert.MeanField.Kernel

end
-- ==== Proof.lean ====
/-
  A mean-field dense layer: per Monte-Carlo sample `s` the weight `w_mu + exp (½ · w_log_var) · eps_w[s]` and the bias
  `b_mu + exp (½ · b_log_var) · eps_b[s]` are drawn, and `out[s] = x[s] · w[s] + b[s]`.

  The kernel walks two column tiles of 1024 output features and, inside each, the sixteen samples. It keeps the tile of
  standard deviations it computes at a column tile's first sample for the other fifteen, and it takes each matrix product
  in three passes over a split of both factors into a part and a residual. Over the extended reals a change of float
  format is the identity, so each part is its factor and each residual is `a - a`: for REAL entries that is `0`, the two
  extra passes vanish, and the kernel's tile is the plain product plus bias. The reference computes that product in one
  batched contraction. Both are the one function `Cert.MeanField.layerOut` of the seven argument arrays:

    * LayerSpec   — the function, and the three-pass sum of real factors (`three_pass_sum`);
    * RealInputs  — the precondition read back: every entry of every argument array is a real number;
    * RefIsLayer  — the reference's run, operation by operation, is the function;
    * BodyPieces, BodyValue — what one run of the kernel body stores, as values of what it loads;
    * KernelValue — the kept tile by induction over the grid, each point's written block, the blocks tiling the result.

  The three frames are the programs' runs with their results forgotten; the kernel's idealization replaced two
  round-trips through bf16 by the identity, which is what `preserves` records.
-/
import proofs.«413528_j57698590654749_3_alg».proof.Defs
import proofs.«413528_j57698590654749_3_alg».proof.Proof.Gen.Kernel
import proofs.«413528_j57698590654749_3_alg».proof.Proof.Gen.Kernel.Skeleton
import proofs.«413528_j57698590654749_3_alg».proof.Proof.Gen.Kernel.Launch
import proofs.«413528_j57698590654749_3_alg».proof.Proof.Gen.Kernel.Points
import proofs.«413528_j57698590654749_3_alg».proof.Proof.Gen.Kernel.Frame
import proofs.«413528_j57698590654749_3_alg».proof.Proof.Gen.KernelIdeal
import proofs.«413528_j57698590654749_3_alg».proof.Proof.Gen.KernelIdeal.Skeleton
import proofs.«413528_j57698590654749_3_alg».proof.Proof.Gen.KernelIdeal.Launch
import proofs.«413528_j57698590654749_3_alg».proof.Proof.Gen.KernelIdeal.Points
import proofs.«413528_j57698590654749_3_alg».proof.Proof.Gen.KernelIdeal.Frame
import proofs.«413528_j57698590654749_3_alg».proof.Proof.Gen.ReferenceIdeal
import proofs.«413528_j57698590654749_3_alg».proof.Proof.Gen.KernelIdeal.Value
import proofs.«413528_j57698590654749_3_alg».proof.Proof.Gen.ReferenceIdeal.Run
import proofs.«413528_j57698590654749_3_alg».proof.Proof.Gen.ReferenceIdeal.Read
import proofs.«413528_j57698590654749_3_alg».proof.Proof.Gen.Pre_finite_inputs
import proofs.«413528_j57698590654749_3_alg».proof.Proof.LayerSpec
import proofs.«413528_j57698590654749_3_alg».proof.Proof.RealInputs
import proofs.«413528_j57698590654749_3_alg».proof.Proof.RefIsLayer
import proofs.«413528_j57698590654749_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two rewrites of the idealization: the batch tile's and the weight tile's round-trip through bf16 are the
    identity at the extended reals, and the rounding through bf16 at the word level. -/
theorem preserves : Cert.preserves_Kernel_KernelIdeal :=
  ⟨IdealRules.truncf_extf.statement Cert.KernelIdeal.S256x2048 .f32 .bf16,
    IdealRules.truncf_extf.statement Cert.KernelIdeal.S2048x1024 .f32 .bf16⟩

/-- From memories agreeing on the arguments, whose entries the precondition makes real, both programs end with the
    layer of the arguments in their result arrays. -/
theorem algebraic : Cert.algebraic_KernelIdeal_ReferenceIdeal := by
  intro m ρ m' ρ' hpre hagree
  have hreal := fun c : Dev Cert.KernelIdeal.nD =>
    Cert.MeanField.real_of_pre
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (hpre c)
  refine ⟨_, Cert.MeanField.Kernel.run m ρ
    (fun c => ⟨(hreal c).1, (hreal c).2.1, (hreal c).2.2.1, (hreal c).2.2.2.2.2.1⟩), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v21_eq _ _ _ _ _ _ _).trans (Cert.MeanField.ref_is_layer _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
